-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2048x64 : Shape := ⟨2, ![2048, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S16384x64 .f32) (main_arg1 : FVec F S2048x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S16384x64 : Shape := ⟨2, ![16384, 64]⟩
abbrev S2048x64 : Shape := ⟨2, ![2048, 64]⟩
abbrev S16384x2048 : Shape := ⟨2, ![16384, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S64x2048 : Shape := ⟨2, ![64, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x64, .f32⟩
  | .hbm, ⟨1, _⟩ => ⟨S2048x64, .f32⟩
  | .hbm, ⟨2, _⟩ => ⟨S16384x2048, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S512x2048, .f32⟩
  | .local _ .vmem, ⟨4, _⟩ => ⟨S512x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x64_S512x64_0_0 : ∀ a, (![0, 0] : Fin 2 → Nat) a + S512x64.size a ≤ S512x64.size a
  h_S512x64 : 0 < S512x64.numel
  inb_S2048x64_S2048x64_0_0 : ∀ a, (![0, 0] : Fin 2 → Nat) a + S2048x64.size a ≤ S2048x64.size a
  h_S2048x64 : 0 < S2048x64.numel
  reduces_S512x64_S512 : S512x64.Reduces [1] S512
  shapeCasts_S512_S512x1 : S512.ShapeCasts S512x1
  reduces_S2048x64_S2048 : S2048x64.Reduces [1] S2048
  shapeCasts_S2048_S1x2048 : S2048.ShapeCasts S1x2048
  bitsLt_bf16_f32 : FTy.bits .bf16 < FTy.bits .f32
  transposes_S2048x64_p1_0_S64x2048 : S2048x64.Transposes [1, 0] S64x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S2048x64 : Shape := ⟨2, ![2048, 64]⟩
abbrev S_ : Shape := ⟨0, ![]⟩
abbrev S16384 : Shape := ⟨1, ![16384]⟩
abbrev S16384x1 : Shape := ⟨2, ![16384, 1]⟩
abbrev S2048 : Shape := ⟨1, ![2048]⟩
abbrev S1x2048 : Shape := ⟨2, ![1, 2048]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S2048x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S2048x64, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S2048x64_S2048_d1 : S2048x64.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x64_S2048x64_S16384x2048_1_1_0_0_n_n_wf : DotDims.WF S16384x64 S2048x64 S16384x2048 [1] [1] [0] [0] [] []

variable [Facts₀]

def dot_S16384x64_S2048x64_S16384x2048_1_1_0_0_n_n : DotDims S16384x64 S2048x64 S16384x2048 where
  lhsContracting := [1]
  rhsContracting := [1]
  lhsNonContracting := [0]
  rhsNonContracting := [0]
  lhsBatch := []
  rhsBatch := []
  wf := dot_S16384x64_S2048x64_S16384x2048_1_1_0_0_n_n_wf

class Facts : Prop extends Facts₀ where

variable [Facts]
-- ==== Proof.Spec.lean ====
/-
  The radial-basis kernel matrix as one function of its two argument matrices.

  For a matrix `x` of 16384 rows and a matrix `r` of 2048 rows, both of 64 columns, the entry at row `p`, column `q`
  of the result is

      exp (c₁ · ((‖x_p‖² + ‖r_q‖²) − c₂ · ⟨x_p, r_q⟩))

  where `‖x_p‖² = ∑ₖ x(p,k)·x(p,k)`, `‖r_q‖² = ∑ₖ r(q,k)·r(q,k)`, `⟨x_p, r_q⟩ = ∑ₖ x(p,k)·r(q,k)` are sums over the 64
  columns, `c₁` is the value of the word `0xBF800000` (minus one) and `c₂` that of `0x40000000` (two). This is the
  expansion `‖x_p − r_q‖² = ‖x_p‖² + ‖r_q‖² − 2⟨x_p, r_q⟩` left unexpanded: both programs compute exactly this tree of
  operations, so no law of the extended reals is needed beyond reading each operation at an index. The two constants are
  kept as the words both programs print; they are never evaluated.
-/
import Idealize.ShloMosaic.PureOps.Ideal
import Idealize.ShloMosaic.Lib.ValueIdx

noncomputable section

namespace Cert.Rbf

open Idealize.ShloMosaic Idealize.ShloMosaic.ValueIdx

/-- The squared norm of a 64-vector given by its coordinates. -/
def normSq (u : Fin 64 → EReal) : EReal := ∑ k : Fin 64, u k * u k

/-- The inner product of two 64-vectors given by their coordinates. -/
def inner64 (u v : Fin 64 → EReal) : EReal := ∑ k : Fin 64, u k * v k

/-- One entry of the kernel matrix from the row of `x` and the row of `r` it depends on. -/
def entry (u v : Fin 64 → EReal) : EReal :=
  Ideal.exp (Ideal.ofBits .f32 0xBF800000#32 * ((normSq u + normSq v) - Ideal.ofBits .f32 0x40000000#32 * inner64 u v))

/-- Row `p` of the 16384 × 64 matrix. -/
def rowX (x : (⟨2, ![16384, 64]⟩ : Shape).Idx → EReal) (p : Fin 16384) : Fin 64 → EReal := fun k => x (ix2 p k)

/-- Row `q` of the 2048 × 64 matrix. -/
def rowR (r : (⟨2, ![2048, 64]⟩ : Shape).Idx → EReal) (q : Fin 2048) : Fin 64 → EReal := fun k => r (ix2 q k)

/-- The kernel matrix at row `p`, column `q`. -/
def rbfAt (x : (⟨2, ![16384, 64]⟩ : Shape).Idx → EReal) (r : (⟨2, ![2048, 64]⟩ : Shape).Idx → EReal)
    (p : Fin 16384) (q : Fin 2048) : EReal :=
  entry (rowX x p) (rowR r q)

/-- The whole 16384 × 2048 kernel matrix. -/
def rbf (x : (⟨2, ![16384, 64]⟩ : Shape).Idx → EReal) (r : (⟨2, ![2048, 64]⟩ : Shape).Idx → EReal) :
    (⟨2, ![16384, 2048]⟩ : Shape).Idx → EReal :=
  fun i => rbfAt x r (i 0) (i 1)

theorem rbf_ix2 (x : (⟨2, ![16384, 64]⟩ : Shape).Idx → EReal) (r : (⟨2, ![2048, 64]⟩ : Shape).Idx → EReal)
    (p : Fin 16384) (q : Fin 2048) : rbf x r (ix2 p q) = rbfAt x r p q := rfl

end Cert.Rbf

end
-- ==== Proof.LibColumn.lean ====
/-
  Two layout operations of a column vector read at an index, general in the extents: a vector of `a` entries cast to an
  `a × 1` column, and an `a × 1` column broadcast to `a × b` (every column of the result is the operand's one column).
  They complete the row forms `[a] → [1, a]` and `[1, b] → [a, b]` of the library's layout lemmas.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`: both
    positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBlock.lean ====
/-
  The kernel body's payload at an index.

  At one grid point the body loads a 512 × 64 block `x` of the first matrix and the whole 2048 × 64 second matrix `r`,
  and stores a 512 × 2048 block. Its entry at `(p, q)` is the specification's `entry` of row `p` of the block and row
  `q` of `r`:
  * the lane sum of `x · x` over the 64 columns, cast to a column and broadcast along the columns, is `‖x_p‖²`;
  * the lane sum of `r · r`, cast to a row and broadcast along the rows, is `‖r_q‖²`;
  * the matrix product of `x` with the transpose of `r`, accumulated into the zero word, is `⟨x_p, r_q⟩`: the
    narrowing of both factors to sixteen bits is the identity on the extended reals, the transpose swaps the two
    coordinates, and the contraction runs over the 64 columns;
  * the rest is pointwise.
-/
import proofs.«103118_j65481071403553_1_alg».proof.Proof.Gen.KernelIdeal.Skeleton
import proofs.«103118_j65481071403553_1_alg».proof.Proof.Spec
import proofs.«103118_j65481071403553_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.TcCoe Idealize.ShloMosaic.ValueIdx Cert.Rbf Cert.LibColumn

/-! ## The two sums of squares -/

/-- The lane sum of `x · x`, as a column broadcast along the columns, at `(p, q)`: the squared norm of row `p`. -/
theorem sqx_at (x : Vec Ideal S512x64 .f32) (p : Fin 512) (q : Fin 2048) :
    broadcastTo S512x2048 (shapeCast S512x1 (multiReduction (F := Ideal) .add [1] S512 (mulf (F := Ideal) x x) 0x00000000#32 reduces_S512x64_S512 (.inl rfl) rfl)
      shapeCasts_S512_S512x1) broadcasts_S512x1_S512x2048 (ix2 p q) = normSq (fun k => x (ix2 p k)) :=
  (broadcastTo_a1_ab_apply _ broadcasts_S512x1_S512x2048 p q).trans
    ((shapeCast_a_a1_apply _ shapeCasts_S512_S512x1 p 0).trans
      ((Ideal.multiReduction_add_single (mulf (F := Ideal) x x) 0x00000000#32 reduces_S512x64_S512 (.inl rfl) rfl (ix1 p)).trans
        (Finset.sum_congr rfl fun k _ => congrArg (mulf (F := Ideal) x x)
          (funext fun a => Fin.ext (by match a with | ⟨0, _⟩ => rfl | ⟨1, _⟩ => rfl)))))

/-- The lane sum of `r · r`, as a row broadcast along the rows, at `(p, q)`: the squared norm of row `q`. -/
theorem sqr_at (r : Vec Ideal S2048x64 .f32) (p : Fin 512) (q : Fin 2048) :
    broadcastTo S512x2048 (shapeCast S1x2048 (multiReduction (F := Ideal) .add [1] S2048 (mulf (F := Ideal) r r) 0x00000000#32 reduces_S2048x64_S2048 (.inl rfl) rfl)
      shapeCasts_S2048_S1x2048) broadcasts_S1x2048_S512x2048 (ix2 p q) = normSq (fun k => r (ix2 q k)) :=
  (broadcastTo_1b_ab_apply _ broadcasts_S1x2048_S512x2048 p q).trans
    ((shapeCast_a_1a_apply _ shapeCasts_S2048_S1x2048 0 q).trans
      ((Ideal.multiReduction_add_single (mulf (F := Ideal) r r) 0x00000000#32 reduces_S2048x64_S2048 (.inl rfl) rfl (ix1 q)).trans
        (Finset.sum_congr rfl fun k _ => congrArg (mulf (F := Ideal) r r)
          (funext fun a => Fin.ext (by match a with | ⟨0, _⟩ => rfl | ⟨1, _⟩ => rfl)))))

/-! ## The product -/

/-- The product's left operand index: row from the output's row, -/
theorem lhs_0 (i : S512x2048.Idx) (κ : dot_S512x64_S64x2048_S512x2048_1_0_0_1_n_n.contr.Idx) :
    (dot_S512x64_S64x2048_S512x2048_1_0_0_1_n_n.lhsIdx i κ 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
/-- column from the contraction index. -/
theorem lhs_1 (i : S512x2048.Idx) (κ : dot_S512x64_S64x2048_S512x2048_1_0_0_1_n_n.contr.Idx) :
    (dot_S512x64_S64x2048_S512x2048_1_0_0_1_n_n.lhsIdx i κ 1).val = (κ ⟨0, by decide⟩).val :=
  dot_S512x64_S64x2048_S512x2048_1_0_0_1_n_n.lhsIdx_val_of_single rfl i κ
/-- The right operand index: row from the contraction index, -/
theorem rhs_0 (i : S512x2048.Idx) (κ : dot_S512x64_S64x2048_S512x2048_1_0_0_1_n_n.contr.Idx) :
    (dot_S512x64_S64x2048_S512x2048_1_0_0_1_n_n.rhsIdx i κ 0).val = (κ ⟨0, by decide⟩).val :=
  dot_S512x64_S64x2048_S512x2048_1_0_0_1_n_n.rhsIdx_val_of_single rfl i κ
/-- column from the output's column. -/
theorem rhs_1 (i : S512x2048.Idx) (κ : dot_S512x64_S64x2048_S512x2048_1_0_0_1_n_n.contr.Idx) :
    (dot_S512x64_S64x2048_S512x2048_1_0_0_1_n_n.rhsIdx i κ 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product of the narrowed block with the transposed narrowed second matrix, into the zero word, at `(p, q)`: the
    inner product of row `p` of the block with row `q` of the second matrix. -/
theorem cross_at (x : Vec Ideal S512x64 .f32) (r : Vec Ideal S2048x64 .f32) (p : Fin 512) (q : Fin 2048) :
    matmul (F := Ideal) dot_S512x64_S64x2048_S512x2048_1_0_0_1_n_n none (truncf (F := Ideal) .bf16 x bitsLt_bf16_f32)
        (transpose S64x2048 [1, 0] (truncf (F := Ideal) .bf16 r bitsLt_bf16_f32) transposes_S2048x64_p1_0_S64x2048)
        (constant (F := Ideal) S512x2048 .f32 0x00000000#32) (ix2 p q)
      = inner64 (fun k => x (ix2 p k)) (fun k => r (ix2 q k)) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p q) ((contrEquiv1 dot_S512x64_S64x2048_S512x2048_1_0_0_1_n_n 64 rfl rfl).symm k) = ix2 p k := funext fun a => Fin.ext (by
    match a with
    | ⟨0, _⟩ => exact lhs_0 _ _
    | ⟨1, _⟩ => exact (lhs_1 _ _).trans hk)
  have er : dot_S512x64_S64x2048_S512x2048_1_0_0_1_n_n.rhsIdx (ix2 p q) ((contrEquiv1 dot_S512x64_S64x2048_S512x2048_1_0_0_1_n_n 64 rfl rfl).symm k) = ix2 k q := funext fun a => Fin.ext (by
    match a with
    | ⟨0, _⟩ => exact (rhs_0 _ _).trans hk
    | ⟨1, _⟩ => exact rhs_1 _ _)
  rw [el, er]
  exact congrArg (x (ix2 p k) * ·) (transpose_ix2_apply (truncf (F := Ideal) .bf16 r bitsLt_bf16_f32) transposes_S2048x64_p1_0_S64x2048 k q)

/-! ## The payload -/

/-- The stored block at `(p, q)` is the specification's entry of row `p` of the loaded block and row `q` of the
    second matrix. -/
theorem pay_at (x : Vec Ideal S512x64 .f32) (r : Vec Ideal S2048x64 .f32) (p : Fin 512) (q : Fin 2048) :
    k0_pay1 (F := Ideal) x r (ix2 p q) = entry (fun k => x (ix2 p k)) (fun k => r (ix2 q k)) := by
  have e : k0_pay1 (F := Ideal) x r (ix2 p q)
      = Ideal.exp (Ideal.ofBits .f32 0xBF800000#32 *
          ((broadcastTo S512x2048 (shapeCast S512x1 (multiReduction (F := Ideal) .add [1] S512 (mulf (F := Ideal) x x) 0x00000000#32 reduces_S512x64_S512 (.inl rfl) rfl)
              shapeCasts_S512_S512x1) broadcasts_S512x1_S512x2048 (ix2 p q)
            + broadcastTo S512x2048 (shapeCast S1x2048 (multiReduction (F := Ideal) .add [1] S2048 (mulf (F := Ideal) r r) 0x00000000#32 reduces_S2048x64_S2048 (.inl rfl) rfl)
              shapeCasts_S2048_S1x2048) broadcasts_S1x2048_S512x2048 (ix2 p q))
           - Ideal.ofBits .f32 0x40000000#32 *
              matmul (F := Ideal) dot_S512x64_S64x2048_S512x2048_1_0_0_1_n_n none (truncf (F := Ideal) .bf16 x bitsLt_bf16_f32)
                (transpose S64x2048 [1, 0] (truncf (F := Ideal) .bf16 r bitsLt_bf16_f32) transposes_S2048x64_p1_0_S64x2048)
                (constant (F := Ideal) S512x2048 .f32 0x00000000#32) (ix2 p q))) := rfl
  rw [e, sqx_at, sqr_at, cross_at]
  rfl

end Cert.KernelIdeal.Block

end
-- ==== Proof.KernelValue.lean ====
/-
  The kernel's output array after the run is the kernel matrix of the specification.

  The grid has 32 points. Point `t` loads rows `512·t … 512·t + 511` of the first matrix (all 64 columns), the whole
  second matrix, and writes back rows `512·t … 512·t + 511` (all 2048 columns) of the output. Entry `(p, q)` of the
  block written at `t` is the specification's entry of row `p` of the loaded block — row `512·t + p` of the first
  matrix — and row `q` of the second matrix: the kernel matrix at `(512·t + p, q)`, which is where that entry of the
  block lies in the output array. The 32 row bands cover the array (row `a` is in band `a / 512`), so the array ends
  holding the kernel matrix everywhere.
-/
import proofs.«103118_j65481071403553_1_alg».proof.Proof.Gen.KernelIdeal.Value
import proofs.«103118_j65481071403553_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Rbf

variable (m : (ℓ : Loc nD τ sig) → Buf (Elt Ideal) ℓ) (ρ : Dev nD → PrngReg)

theorem zero_off : (![0, 0] : Fin 2 → Nat) = fun _ => 0 := funext fun a => by fin_cases a <;> rfl

/-- Two functions of a 512 × 2048 index agree when they agree at every pair of coordinates. -/
theorem funext_blk {α : Type} {f g : (⟨2, ![512, 2048]⟩ : Shape).Idx → α} (h : ∀ (p : Fin 512) (q : Fin 2048), f (ix2 p q) = g (ix2 p q)) :
    f = g :=
  funext fun j => by rw [eq_ix2 j]; exact h _ _

/-- The printed index maps over the 32 grid points: the block of the first matrix moves with the output's row band and
    spans all columns, the second matrix is always its one whole block, and the output's band spans all columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every row band is some point's. -/
theorem idx_onto : ∀ (b : Fin 32), ∃ t : Fin cfg0.N, win0_2.index t = ![b.val, 0] :=
  (by decide +kernel : ∀ (b : Fin 32), ∃ t : Fin grid0.N, win0_2.index t = ![b.val, 0])

/-- What point `t` writes back is its row band of the kernel matrix of the argument arrays. -/
theorem flushed_eq (c : Dev nD) (t : Fin cfg0.N) :
    (dats m 0 c).flushed 2 t = ((cfg0.win 2).blk t).view.read (Elt Ideal) (rbf (V m c main_arg0) (V m c main_arg1)) := by
  rw [Value.flushed2]
  unfold out0_2
  rw [View.canon_unit_zero zero_off]
  simp only [View.ld_unit_zero (S := S512x64) zero_off, View.ld_unit_zero (S := S2048x64) zero_off]
  obtain ⟨e0, e1, e2, e3, e4, e5⟩ := idx_facts t
  refine funext_blk fun p q => ?_
  show k0_pay1 (F := Ideal) (iblk m c 0 t) (iblk m c 1 t) (ix2 p q)
    = rbf (V m c main_arg0) (V m c main_arg1) (((cfg0.win 2).blk t).view.emb (ix2 p q))
  refine (Block.pay_at (iblk m c 0 t) (iblk m c 1 t) p q).trans ?_
  have hx : ∀ k : Fin 64, ((cfg0.win 0).blk t).view.emb (ix2 p k) = ix2 ((((cfg0.win 2).blk t).view.emb (ix2 p q)) 0) k := fun k => by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 64 + 1 * k.val = k.val; omega
  have hr : ∀ k : Fin 64, ((cfg0.win 1).blk t).view.emb (ix2 q k) = ix2 ((((cfg0.win 2).blk t).view.emb (ix2 p q)) 1) k := fun k => by
    funext a; apply Fin.ext
    match a with
    | ⟨0, _⟩ => show win0_1.index t (0 : Fin 2) * 2048 + 1 * q.val = win0_2.index t (1 : Fin 2) * 2048 + 1 * q.val; omega
    | ⟨1, _⟩ => show win0_1.index t (1 : Fin 2) * 64 + 1 * k.val = k.val; omega
  show entry (fun k => V m c main_arg0 (((cfg0.win 0).blk t).view.emb (ix2 p k))) (fun k => V m c main_arg1 (((cfg0.win 1).blk t).view.emb (ix2 q k)))
    = entry (fun k => V m c main_arg0 (ix2 ((((cfg0.win 2).blk t).view.emb (ix2 p q)) 0) k)) (fun k => V m c main_arg1 (ix2 ((((cfg0.win 2).blk t).view.emb (ix2 p q)) 1) k))
  exact congrArg₂ entry (funext fun k => congrArg (V m c main_arg0) (hx k)) (funext fun k => congrArg (V m c main_arg1) (hr k))

/-- An index of the output array is in point `t`'s band iff each coordinate is in the band's range on its axis. -/
theorem mem_blk (t : Fin cfg0.N) (i : S16384x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- The bands cover the array: row `a` lies in band `a / 512`. -/
theorem cover (i : S16384x2048.Idx) : ∃ t : Fin cfg0.N, (cfg0.win 2).flush t = true ∧ i ∈ ((cfg0.win 2).blk t).view.set := by
  have hi0 : (i 0).val < 16384 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The output array after the run is the kernel matrix of the argument arrays as launched. -/
theorem final (c : Dev nD) :
    (dats m 0 c).arrAt 2 cfg0.N = rbf (m ((c : Thread nD τ).loc main_arg0)) (m ((c : Thread nD τ).loc main_arg1)) :=
  (dats m 0 c).arrAt_eq_of_cover 2 (rbf (V m c main_arg0) (V m c main_arg1)) (fun t _ => flushed_eq m c t) cover

/-- The kernel's run: it terminates with the output array at the kernel matrix and the arguments unchanged. -/
theorem run : θ_run defs (onTc (τ := τ) (main (F := Ideal))) ⟨m, fun _ => 0, ρ⟩ fun r => ∀ c : Dev nD,
      r.2.mem ((c : Thread nD τ).loc main_v0) = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result is the kernel matrix of the specification.

  The reference computes the row sums of squares of both matrices on the host (a sum into the zero word), broadcasts
  the first along columns and the second along rows, adds them, subtracts twice the product of `x` with the transpose
  of `r` (one `dot_general` contracting the 64 columns of both), multiplies by minus one and exponentiates. Read at
  the index `(p, q)` through the generated stage lemmas this is
  `exp (c₁ · (((0 + ∑ₖ x(p,k)²) + (0 + ∑ₖ r(q,k)²)) − c₂ · ∑ₖ x(p,k) r(q,k)))`, and the zero word denotes `0`.
-/
import proofs.«103118_j65481071403553_1_alg».proof.Proof.Gen.ReferenceIdeal.Read
import proofs.«103118_j65481071403553_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Cert.Rbf

/-- The row of `x` the sum of squares at `(p, q)` runs over, after the two broadcasts. -/
theorem sqx_idx (p : Fin 16384) (q : Fin 2048) (k : Fin 64) :
    idx_main_v1 (idx_main_v2 (idx_main_v7 (ix2 p q))) k = ix2 p k :=
  funext fun a => Fin.ext (by match a with | ⟨0, _⟩ => rfl | ⟨1, _⟩ => rfl)

/-- The row of `r` the sum of squares at `(p, q)` runs over, after the two broadcasts. -/
theorem sqr_idx (p : Fin 16384) (q : Fin 2048) (k : Fin 64) :
    idx_main_v4 (idx_main_v5 (idx_main_v8 (ix2 p q))) k = ix2 q k :=
  funext fun a => Fin.ext (by match a with | ⟨0, _⟩ => rfl | ⟨1, _⟩ => rfl)

/-- The product's left factor at `(p, q)`, term `k`, is `x(p, k)`. -/
theorem dotl_idx (p : Fin 16384) (q : Fin 2048) (k : Fin 64) : lidx_main_v6 (ix2 p q) k = ix2 p k :=
  funext fun a => Fin.ext (by match a with | ⟨0, _⟩ => rfl | ⟨1, _⟩ => rfl)

/-- The product's right factor at `(p, q)`, term `k`, is `r(q, k)`. -/
theorem dotr_idx (p : Fin 16384) (q : Fin 2048) (k : Fin 64) : ridx_main_v6 (ix2 p q) k = ix2 q k :=
  funext fun a => Fin.ext (by match a with | ⟨0, _⟩ => rfl | ⟨1, _⟩ => rfl)

/-- The reference's last stage, as a function of the two argument matrices, is the kernel matrix. -/
theorem ref_eq (x0 : (⟨S16384x64, .f32⟩ : BufTy).Contents (Elt Ideal)) (x1 : (⟨S2048x64, .f32⟩ : BufTy).Contents (Elt Ideal)) :
    val_main_v15 (F := Ideal) x0 x1 = rbf x0 x1 := by
  funext i
  obtain ⟨p, q, rfl⟩ : ∃ (p : Fin 16384) (q : Fin 2048), i = ix2 p q := ⟨i 0, i 1, eq_ix2 i⟩
  rw [val_main_v15_apply, val_main_v14_apply, val_main_v13_apply, val_main_cst_2_apply, val_main_v12_apply,
    val_main_v9_apply, val_main_v7_apply, val_main_v2_apply, val_main_v1_apply, val_main_cst_apply,
    val_main_v8_apply, val_main_v5_apply, val_main_v4_apply, val_main_cst_0_apply,
    val_main_v11_apply, val_main_v10_apply, val_main_cst_1_apply, val_main_v6_apply]
  simp only [val_main_v0_apply, val_main_v3_apply, sqx_idx, sqr_idx, dotl_idx, dotr_idx,
    Ideal.hostUnary_exp_def, Ideal.mulf_def, Ideal.addf_def, Ideal.subf_def, Ideal.ofBits_def,
    Ideal.ofBits_zero_f32, zero_add, rbf_ix2, rbfAt, entry, normSq, inner64, rowX, rowR]

end Cert.ReferenceIdeal.RefValue

end
-- ==== Proof.lean ====
/-
  The radial-basis kernel matrix `exp (−(‖x_p‖² + ‖r_q‖² − 2⟨x_p, r_q⟩))` of a 16384 × 64 matrix `x` against a 2048 × 64
  matrix `r`: a tiled kernel (32 row bands of 512 rows, the second matrix resident) against the same expression on
  whole arrays.

  Both programs compute the same tree of operations at every entry `(p, q)` — the two sums of squares, each into the
  zero word; their sum; minus the word for two times the inner product of row `p` of `x` with row `q` of `r`; times
  the word for minus one; the exponential — so over the extended reals the results are equal with no law beyond
  reading each operation at an index (Proof/Spec.lean states the function once). On the kernel side the inner product
  is a matrix product of the block with the transposed second matrix, both narrowed to sixteen bits (the identity on
  the extended reals), accumulated into zero (Proof/KernelBlock.lean); the 32 bands tile the output
  (Proof/KernelValue.lean). On the reference side it is one `dot_general` contracting the columns
  (Proof/RefValue.lean). The precondition is not used: nothing here needs the inputs finite.

  The frames of the two kernel programs are the generated ones; the reference's frame is its generated run with the
  result dropped; the idealization rewrote no operation, so there is nothing to preserve.
-/
import proofs.«103118_j65481071403553_1_alg».proof.Defs
import proofs.«103118_j65481071403553_1_alg».proof.Proof.Gen.Kernel
import proofs.«103118_j65481071403553_1_alg».proof.Proof.Gen.Kernel.Skeleton
import proofs.«103118_j65481071403553_1_alg».proof.Proof.Gen.Kernel.Launch
import proofs.«103118_j65481071403553_1_alg».proof.Proof.Gen.Kernel.Points
import proofs.«103118_j65481071403553_1_alg».proof.Proof.Gen.Kernel.Frame
import proofs.«103118_j65481071403553_1_alg».proof.Proof.Gen.KernelIdeal
import proofs.«103118_j65481071403553_1_alg».proof.Proof.Gen.KernelIdeal.Skeleton
import proofs.«103118_j65481071403553_1_alg».proof.Proof.Gen.KernelIdeal.Launch
import proofs.«103118_j65481071403553_1_alg».proof.Proof.Gen.KernelIdeal.Points
import proofs.«103118_j65481071403553_1_alg».proof.Proof.Gen.KernelIdeal.Frame
import proofs.«103118_j65481071403553_1_alg».proof.Proof.Gen.ReferenceIdeal
import proofs.«103118_j65481071403553_1_alg».proof.Proof.Gen.Pre_finite_inputs
import proofs.«103118_j65481071403553_1_alg».proof.Proof.Gen.KernelIdeal.Value
import proofs.«103118_j65481071403553_1_alg».proof.Proof.Gen.ReferenceIdeal.Run
import proofs.«103118_j65481071403553_1_alg».proof.Proof.Gen.ReferenceIdeal.Read
import proofs.«103118_j65481071403553_1_alg».proof.Proof.KernelValue
import proofs.«103118_j65481071403553_1_alg».proof.Proof.RefValue
import Idealize.ShloMosaic.Adequacy
import Idealize.ShloMosaic.Init

noncomputable section

namespace Cert.Proof

open Idealize.ShloMosaic Idealize.SL.Sem

/-- Both idealized programs, from memories that agree on the two matrices, end with the kernel matrix of those
    matrices in their result arrays: the kernel by its run over the 32 row bands, the reference by its run read stage
    by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
